-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256 .f32) (main_arg10 : FVec F S256x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256x256 .f32) (main_arg9 : FVec F S256 .f32) (main_arg10 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x256 .f32) (main_arg9 : FVec F S256 .f32) (main_arg10 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x256, .f32⟩
  | .hbm, ⟨54, _⟩ => ⟨S_, .f32⟩
  | .hbm, ⟨55, _⟩ => ⟨S50000x256, .f32⟩
  | .hbm, ⟨56, _⟩ => ⟨S600000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x256, .f32⟩
  | .hbm, ⟨71, _⟩ => ⟨S_, .f32⟩
  | .hbm, ⟨72, _⟩ => ⟨S50000x256, .f32⟩
  | .hbm, ⟨73, _⟩ => ⟨S600000x1, .i32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S1x256, .f32⟩
  | .hbm, ⟨78, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x256, .f32⟩
  | .hbm, ⟨58, _⟩ => ⟨S_, .f32⟩
  | .hbm, ⟨59, _⟩ => ⟨S50000x256, .f32⟩
  | .hbm, ⟨60, _⟩ => ⟨S600000x1, .i32⟩
  | .hbm, ⟨61, _⟩ => ⟨S50000x256, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S50000, .f32⟩
  | .hbm, ⟨66, _⟩ => ⟨S600000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S600000x256, .f32⟩
  | .hbm, ⟨92, _⟩ => ⟨S_, .f32⟩
  | .hbm, ⟨93, _⟩ => ⟨S50000x256, .f32⟩
  | .hbm, ⟨94, _⟩ => ⟨S600000x1, .i32⟩
  | .hbm, ⟨95, _⟩ => ⟨S50000x256, .f32⟩
  | .hbm, ⟨96, _⟩ => ⟨S_, .f32⟩
  | .hbm, ⟨97, _⟩ => ⟨S600000, .f32⟩
  | .hbm, ⟨98, _⟩ => ⟨S_, .f32⟩
  | .hbm, ⟨99, _⟩ => ⟨S50000, .f32⟩
  | .hbm, ⟨100, _⟩ => ⟨S600000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S50000x256, .f32⟩
  | .hbm, ⟨109, _⟩ => ⟨S1x256, .f32⟩
  | .hbm, ⟨110, _⟩ => ⟨S50000x256, .f32⟩
  | .hbm, ⟨111, _⟩ => ⟨S50000x256, .f32⟩
  | .hbm, ⟨112, _⟩ => ⟨S50000x256, .f32⟩
  | .hbm, ⟨113, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Layer.lean ====
/-
  One layer's arithmetic at an entry.

  A layer takes the aggregated matrix M and the node matrix X (both a × k), two weight matrices Wl, Wr (k × n) and a bias
  row, and writes at (p, q)
      (Σ_l M(p, l)·Wl(l, q) + Σ_l X(p, l)·Wr(l, q)) + bias(q),
  clamped below at zero in the first two layers. At the ideal values the narrowing of the operands before the products
  is the identity, and a product into a zero accumulator is the plain sum over the contracted coordinate.
-/
import proofs.«146359_j89996744720665_1_alg».proof.Proof.Gen.KernelIdeal.Skeleton
import proofs.«146359_j89996744720665_1_alg».proof.Proof.LibDenseLayer

noncomputable section

namespace Cert.KernelIdeal.Layer

open Idealize.ShloMosaic Idealize.ShloMosaic.ValueIdx Idealize.ShloMosaic.DenseLayer Cert.KernelIdeal Cert.KernelIdeal.Gen

/-- The first layer's stored value at (p, q): the two products over the 128 input features, the bias, the clamp. -/
theorem pay0_apply (v0 v3 : Vec Ideal S2000x128 .f32) (v5 v7 : Vec Ideal S128x256 .f32) (v12 : Vec Ideal S1x256 .f32)
    (p : Fin 2000) (q : Fin 256) :
    k0_pay1 (F := Ideal) v0 v3 v5 v7 v12 (ix2 p q)
      = max ((∑ l : Fin 128, v0 (ix2 p l) * v5 (ix2 l q) + ∑ l : Fin 128, v3 (ix2 p l) * v7 (ix2 l q))
          + v12 (ix2 0 q)) 0 := by
  unfold k0_pay1
  rw [maximumf_apply, addf_apply, addf_apply, broadcast_apply]
  simp only [shapeCast_self]
  refine congrArg₂ max (congrArg₂ (· + ·) (congrArg₂ (· + ·) ?_ ?_) ?_) ?_
  · exact matmul_rows_apply _ none _ _ p q
  · exact matmul_rows_apply _ none _ _ p q
  · exact broadcastTo_1b_ab_apply _ _ p q
  · exact Ideal.ofBits_zero_f32

/-- The second layer's stored value at (p, q): the two products over the 256 hidden features, the bias, the clamp. -/
theorem pay1_apply (v0 v3 : Vec Ideal S2000x256 .f32) (v6 v8 : Vec Ideal S256x256 .f32) (v13 : Vec Ideal S1x256 .f32)
    (p : Fin 2000) (q : Fin 256) :
    k1_pay1 (F := Ideal) v0 v3 v6 v8 v13 (ix2 p q)
      = max ((∑ l : Fin 256, v0 (ix2 p l) * v6 (ix2 l q) + ∑ l : Fin 256, v3 (ix2 p l) * v8 (ix2 l q))
          + v13 (ix2 0 q)) 0 := by
  unfold k1_pay1
  rw [maximumf_apply, addf_apply, addf_apply, broadcast_apply]
  simp only [shapeCast_self]
  refine congrArg₂ max (congrArg₂ (· + ·) (congrArg₂ (· + ·) ?_ ?_) ?_) ?_
  · exact matmul_rows_apply _ none _ _ p q
  · exact matmul_rows_apply _ none _ _ p q
  · exact broadcastTo_1b_ab_apply _ _ p q
  · exact Ideal.ofBits_zero_f32

/-- The last layer's stored value at (p, q): the two products over the 256 hidden features and the bias, no clamp. -/
theorem pay2_apply (v0 v3 : Vec Ideal S2000x256 .f32) (v6 v8 : Vec Ideal S256x256 .f32) (v13 : Vec Ideal S1x256 .f32)
    (p : Fin 2000) (q : Fin 256) :
    k2_pay1 (F := Ideal) v0 v3 v6 v8 v13 (ix2 p q)
      = (∑ l : Fin 256, v0 (ix2 p l) * v6 (ix2 l q) + ∑ l : Fin 256, v3 (ix2 p l) * v8 (ix2 l q))
          + v13 (ix2 0 q) := by
  unfold k2_pay1
  rw [addf_apply, addf_apply]
  simp only [shapeCast_self]
  refine congrArg₂ (· + ·) (congrArg₂ (· + ·) ?_ ?_) ?_
  · exact matmul_rows_apply _ none _ _ p q
  · exact matmul_rows_apply _ none _ _ p q
  · exact broadcastTo_1b_ab_apply _ _ p q

end Cert.KernelIdeal.Layer

end
-- ==== Proof.Region0.lean ====
/-
  The first layer's array.
-/
import proofs.«146359_j89996744720665_1_alg».proof.Proof.Gen.KernelIdeal.Frame
import proofs.«146359_j89996744720665_1_alg».proof.Proof.Layer
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, h). -/
def G (M X : Vec Ideal S50000x128 .f32) (Wl Wr : Vec Ideal S128x256 .f32) (b : Vec Ideal S1x256 .f32) :
    Vec Ideal S50000x256 .f32 :=
  fun i => max ((∑ l : Fin 128, M (ix2 (i 0) l) * Wl (ix2 l (i 1)) + ∑ l : Fin 128, X (ix2 (i 0) l) * Wr (ix2 l (i 1)))
    + b (ix2 0 (i 1))) 0

/-- The stored value at any index of the block. -/
theorem pay0_at (v0 v3 : Vec Ideal S2000x128 .f32) (v5 v7 : Vec Ideal S128x256 .f32) (v12 : Vec Ideal S1x256 .f32)
    (j : S2000x256.Idx) :
    k0_pay1 (F := Ideal) v0 v3 v5 v7 v12 j
      = max ((∑ l : Fin 128, v0 (ix2 (j 0) l) * v5 (ix2 l (j 1)) + ∑ l : Fin 128, v3 (ix2 (j 0) l) * v7 (ix2 l (j 1)))
          + v12 (ix2 0 (j 1))) 0 :=
  (congrArg (k0_pay1 (F := Ideal) v0 v3 v5 v7 v12) (eq_ix2 j)).trans (pay0_apply v0 v3 v5 v7 v12 (j 0) (j 1))

/-- The printed index maps over the grid: the row-blocked windows move with the point, the others stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A block of the aggregated matrix is its rows `2000·t … 2000·t + 1999`. -/
theorem blk_0 (c : Dev nD) (t : Fin cfg0.N) (y : S2000x128.Idx) (k : S50000x128.Idx)
    (h0 : (k 0).val = t.val * 2000 + (y 0).val) (h1 : (k 1).val = (y 1).val) :
    (iblk0 V c 0 t : Vec Ideal S2000x128 .f32) y = (V c main_v24 : Vec Ideal S50000x128 .f32) k := by
  obtain ⟨e0, e1, -⟩ := idx_facts t
  unfold iblk0
  rw [View.read_apply]
  show V c main_v24 _ = V c main_v24 _
  congr 1
  funext a; apply Fin.ext
  match a with
  | ⟨0, _⟩ => show win0_0.index t 0 * 2000 + 1 * (y 0).val = (k 0).val; omega
  | ⟨1, _⟩ => show win0_0.index t 1 * 128 + 1 * (y 1).val = (k 1).val; omega

/-- A block of the node matrix is its rows `2000·t … 2000·t + 1999`. -/
theorem blk_1 (c : Dev nD) (t : Fin cfg0.N) (y : S2000x128.Idx) (k : S50000x128.Idx)
    (h0 : (k 0).val = t.val * 2000 + (y 0).val) (h1 : (k 1).val = (y 1).val) :
    (iblk0 V c 1 t : Vec Ideal S2000x128 .f32) y = (V c main_arg0 : Vec Ideal S50000x128 .f32) k := by
  obtain ⟨-, -, e0, e1, -⟩ := idx_facts t
  unfold iblk0
  rw [View.read_apply]
  show V c main_arg0 _ = V c main_arg0 _
  congr 1
  funext a; apply Fin.ext
  match a with
  | ⟨0, _⟩ => show win0_1.index t 0 * 2000 + 1 * (y 0).val = (k 0).val; omega
  | ⟨1, _⟩ => show win0_1.index t 1 * 128 + 1 * (y 1).val = (k 1).val; omega

/-- The first weight matrix is staged whole. -/
theorem blk_2 (c : Dev nD) (t : Fin cfg0.N) (y k : S128x256.Idx)
    (h0 : (k 0).val = (y 0).val) (h1 : (k 1).val = (y 1).val) :
    (iblk0 V c 2 t : Vec Ideal S128x256 .f32) y = (V c main_arg2 : Vec Ideal S128x256 .f32) k := by
  obtain ⟨-, -, -, -, e0, e1, -⟩ := idx_facts t
  unfold iblk0
  rw [View.read_apply]
  show V c main_arg2 _ = V c main_arg2 _
  congr 1
  funext a; apply Fin.ext
  match a with
  | ⟨0, _⟩ => show win0_2.index t 0 * 128 + 1 * (y 0).val = (k 0).val; omega
  | ⟨1, _⟩ => show win0_2.index t 1 * 256 + 1 * (y 1).val = (k 1).val; omega

/-- The bias row is staged whole. -/
theorem blk_3 (c : Dev nD) (t : Fin cfg0.N) (y k : S1x256.Idx)
    (h0 : (k 0).val = (y 0).val) (h1 : (k 1).val = (y 1).val) :
    (iblk0 V c 3 t : Vec Ideal S1x256 .f32) y = (V c main_v25 : Vec Ideal S1x256 .f32) k := by
  obtain ⟨-, -, -, -, -, -, e0, e1, -⟩ := idx_facts t
  unfold iblk0
  rw [View.read_apply]
  show V c main_v25 _ = V c main_v25 _
  congr 1
  funext a; apply Fin.ext
  match a with
  | ⟨0, _⟩ => show win0_3.index t 0 * 1 + 1 * (y 0).val = (k 0).val; omega
  | ⟨1, _⟩ => show win0_3.index t 1 * 256 + 1 * (y 1).val = (k 1).val; omega

/-- The second weight matrix is staged whole. -/
theorem blk_4 (c : Dev nD) (t : Fin cfg0.N) (y k : S128x256.Idx)
    (h0 : (k 0).val = (y 0).val) (h1 : (k 1).val = (y 1).val) :
    (iblk0 V c 4 t : Vec Ideal S128x256 .f32) y = (V c main_arg4 : Vec Ideal S128x256 .f32) k := by
  obtain ⟨-, -, -, -, -, -, -, -, e0, e1, -⟩ := idx_facts t
  unfold iblk0
  rw [View.read_apply]
  show V c main_arg4 _ = V c main_arg4 _
  congr 1
  funext a; apply Fin.ext
  match a with
  | ⟨0, _⟩ => show win0_4.index t 0 * 128 + 1 * (y 0).val = (k 0).val; omega
  | ⟨1, _⟩ => show win0_4.index t 1 * 256 + 1 * (y 1).val = (k 1).val; omega

theorem flushed_eq (c : Dev nD) (t : Fin cfg0.N) :
    (dat0 V c).flushed 5 t = ((cfg0.win 5).blk t).view.read (Elt Ideal)
      (G (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  show k0_pay1 (F := Ideal) (iblk0 V c 0 t) (iblk0 V c 1 t) (iblk0 V c 2 t) (iblk0 V c 4 t) (iblk0 V c 3 t) j
    = G (V c main_v24) (V c main_arg0) (V c main_arg2) (V c main_arg4) (V c main_v25) (((cfg0.win 5).blk t).view.emb j)
  refine (pay0_at (iblk0 V c 0 t) (iblk0 V c 1 t) (iblk0 V c 2 t) (iblk0 V c 4 t) (iblk0 V c 3 t) j).trans ?_
  obtain ⟨-, -, -, -, -, -, -, -, -, -, e0, e1⟩ := idx_facts t
  have hr0 : ((((cfg0.win 5).blk t).view.emb j) 0).val = t.val * 2000 + (j 0).val := by
    show win0_5.index t 0 * 2000 + 1 * (j 0).val = _; omega
  have hr1 : ((((cfg0.win 5).blk t).view.emb j) 1).val = (j 1).val := by
    show win0_5.index t 1 * 256 + 1 * (j 1).val = _; omega
  unfold G
  refine congrArg₂ max (congrArg₂ (· + ·) (congrArg₂ (· + ·)
    (Finset.sum_congr rfl fun l _ => congrArg₂ (· * ·) ?_ ?_)
    (Finset.sum_congr rfl fun l _ => congrArg₂ (· * ·) ?_ ?_)) ?_) rfl
  · exact blk_0 V c t _ _ hr0 rfl
  · exact blk_2 V c t _ _ rfl hr1
  · exact blk_1 V c t _ _ hr0 rfl
  · exact blk_4 V c t _ _ rfl hr1
  · exact blk_3 V c t _ _ rfl hr1

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- The 25 row blocks cover the 50000 rows: row `r` lies in block `r / 2000`. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, -, -, e0, e1⟩ := idx_facts t
  refine ⟨t, flush0_5 t, ?_⟩
  rw [mem_blk]
  intro a
  have ht : t.val = (i 0).val / 2000 := rfl
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The first layer's array after the region: the layer function of the arrays the region found. -/
theorem final (c : Dev nD) :
    (dat0 V c).arrAt 5 cfg0.N = G (V c main_v24) (V c main_arg0) (V c main_arg2) (V c main_arg4) (V c main_v25) :=
  (dat0 V c).arrAt_eq_of_cover 5 _ (fun t _ => flushed_eq V c t) cover

end Cert.KernelIdeal.Region0

end
-- ==== Proof.Region1.lean ====
/-
  The second layer's array.
-/
import proofs.«146359_j89996744720665_1_alg».proof.Proof.Gen.KernelIdeal.Frame
import proofs.«146359_j89996744720665_1_alg».proof.Proof.Layer
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, h). -/
def G (M X : Vec Ideal S50000x256 .f32) (Wl Wr : Vec Ideal S256x256 .f32) (b : Vec Ideal S1x256 .f32) :
    Vec Ideal S50000x256 .f32 :=
  fun i => max ((∑ l : Fin 256, M (ix2 (i 0) l) * Wl (ix2 l (i 1)) + ∑ l : Fin 256, X (ix2 (i 0) l) * Wr (ix2 l (i 1)))
    + b (ix2 0 (i 1))) 0

/-- The stored value at any index of the block. -/
theorem pay1_at (v0 v3 : Vec Ideal S2000x256 .f32) (v5 v7 : Vec Ideal S256x256 .f32) (v12 : Vec Ideal S1x256 .f32)
    (j : S2000x256.Idx) :
    k1_pay1 (F := Ideal) v0 v3 v5 v7 v12 j
      = max ((∑ l : Fin 256, v0 (ix2 (j 0) l) * v5 (ix2 l (j 1)) + ∑ l : Fin 256, v3 (ix2 (j 0) l) * v7 (ix2 l (j 1)))
          + v12 (ix2 0 (j 1))) 0 :=
  (congrArg (k1_pay1 (F := Ideal) v0 v3 v5 v7 v12) (eq_ix2 j)).trans (pay1_apply v0 v3 v5 v7 v12 (j 0) (j 1))

/-- The printed index maps over the grid: the row-blocked windows move with the point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A block of the aggregated matrix is its rows `2000·t … 2000·t + 1999`. -/
theorem blk_0 (c : Dev nD) (t : Fin cfg1.N) (y : S2000x256.Idx) (k : S50000x256.Idx)
    (h0 : (k 0).val = t.val * 2000 + (y 0).val) (h1 : (k 1).val = (y 1).val) :
    (iblk1 V c 0 t : Vec Ideal S2000x256 .f32) y = (V c main_v38 : Vec Ideal S50000x256 .f32) k := by
  obtain ⟨e0, e1, -⟩ := idx_facts t
  unfold iblk1
  rw [View.read_apply]
  show V c main_v38 _ = V c main_v38 _
  congr 1
  funext a; apply Fin.ext
  match a with
  | ⟨0, _⟩ => show win1_0.index t 0 * 2000 + 1 * (y 0).val = (k 0).val; omega
  | ⟨1, _⟩ => show win1_0.index t 1 * 256 + 1 * (y 1).val = (k 1).val; omega

/-- A block of the node matrix is its rows `2000·t … 2000·t + 1999`. -/
theorem blk_1 (c : Dev nD) (t : Fin cfg1.N) (y : S2000x256.Idx) (k : S50000x256.Idx)
    (h0 : (k 0).val = t.val * 2000 + (y 0).val) (h1 : (k 1).val = (y 1).val) :
    (iblk1 V c 1 t : Vec Ideal S2000x256 .f32) y = (V c main_v26 : Vec Ideal S50000x256 .f32) k := by
  obtain ⟨-, -, e0, e1, -⟩ := idx_facts t
  unfold iblk1
  rw [View.read_apply]
  show V c main_v26 _ = V c main_v26 _
  congr 1
  funext a; apply Fin.ext
  match a with
  | ⟨0, _⟩ => show win1_1.index t 0 * 2000 + 1 * (y 0).val = (k 0).val; omega
  | ⟨1, _⟩ => show win1_1.index t 1 * 256 + 1 * (y 1).val = (k 1).val; omega

/-- The first weight matrix is staged whole. -/
theorem blk_2 (c : Dev nD) (t : Fin cfg1.N) (y k : S256x256.Idx)
    (h0 : (k 0).val = (y 0).val) (h1 : (k 1).val = (y 1).val) :
    (iblk1 V c 2 t : Vec Ideal S256x256 .f32) y = (V c main_arg5 : Vec Ideal S256x256 .f32) k := by
  obtain ⟨-, -, -, -, e0, e1, -⟩ := idx_facts t
  unfold iblk1
  rw [View.read_apply]
  show V c main_arg5 _ = V c main_arg5 _
  congr 1
  funext a; apply Fin.ext
  match a with
  | ⟨0, _⟩ => show win1_2.index t 0 * 256 + 1 * (y 0).val = (k 0).val; omega
  | ⟨1, _⟩ => show win1_2.index t 1 * 256 + 1 * (y 1).val = (k 1).val; omega

/-- The bias row is staged whole. -/
theorem blk_3 (c : Dev nD) (t : Fin cfg1.N) (y k : S1x256.Idx)
    (h0 : (k 0).val = (y 0).val) (h1 : (k 1).val = (y 1).val) :
    (iblk1 V c 3 t : Vec Ideal S1x256 .f32) y = (V c main_v39 : Vec Ideal S1x256 .f32) k := by
  obtain ⟨-, -, -, -, -, -, e0, e1, -⟩ := idx_facts t
  unfold iblk1
  rw [View.read_apply]
  show V c main_v39 _ = V c main_v39 _
  congr 1
  funext a; apply Fin.ext
  match a with
  | ⟨0, _⟩ => show win1_3.index t 0 * 1 + 1 * (y 0).val = (k 0).val; omega
  | ⟨1, _⟩ => show win1_3.index t 1 * 256 + 1 * (y 1).val = (k 1).val; omega

/-- The second weight matrix is staged whole. -/
theorem blk_4 (c : Dev nD) (t : Fin cfg1.N) (y k : S256x256.Idx)
    (h0 : (k 0).val = (y 0).val) (h1 : (k 1).val = (y 1).val) :
    (iblk1 V c 4 t : Vec Ideal S256x256 .f32) y = (V c main_arg7 : Vec Ideal S256x256 .f32) k := by
  obtain ⟨-, -, -, -, -, -, -, -, e0, e1, -⟩ := idx_facts t
  unfold iblk1
  rw [View.read_apply]
  show V c main_arg7 _ = V c main_arg7 _
  congr 1
  funext a; apply Fin.ext
  match a with
  | ⟨0, _⟩ => show win1_4.index t 0 * 256 + 1 * (y 0).val = (k 0).val; omega
  | ⟨1, _⟩ => show win1_4.index t 1 * 256 + 1 * (y 1).val = (k 1).val; omega

theorem flushed_eq (c : Dev nD) (t : Fin cfg1.N) :
    (dat1 V c).flushed 5 t = ((cfg1.win 5).blk t).view.read (Elt Ideal)
      (G (V c main_v38) (V c main_v26) (V c main_arg5) (V c main_arg7) (V c main_v39)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext j
  show k1_pay1 (F := Ideal) (iblk1 V c 0 t) (iblk1 V c 1 t) (iblk1 V c 2 t) (iblk1 V c 4 t) (iblk1 V c 3 t) j
    = G (V c main_v38) (V c main_v26) (V c main_arg5) (V c main_arg7) (V c main_v39) (((cfg1.win 5).blk t).view.emb j)
  refine (pay1_at (iblk1 V c 0 t) (iblk1 V c 1 t) (iblk1 V c 2 t) (iblk1 V c 4 t) (iblk1 V c 3 t) j).trans ?_
  obtain ⟨-, -, -, -, -, -, -, -, -, -, e0, e1⟩ := idx_facts t
  have hr0 : ((((cfg1.win 5).blk t).view.emb j) 0).val = t.val * 2000 + (j 0).val := by
    show win1_5.index t 0 * 2000 + 1 * (j 0).val = _; omega
  have hr1 : ((((cfg1.win 5).blk t).view.emb j) 1).val = (j 1).val := by
    show win1_5.index t 1 * 256 + 1 * (j 1).val = _; omega
  unfold G
  refine congrArg₂ max (congrArg₂ (· + ·) (congrArg₂ (· + ·)
    (Finset.sum_congr rfl fun l _ => congrArg₂ (· * ·) ?_ ?_)
    (Finset.sum_congr rfl fun l _ => congrArg₂ (· * ·) ?_ ?_)) ?_) rfl
  · exact blk_0 V c t _ _ hr0 rfl
  · exact blk_2 V c t _ _ rfl hr1
  · exact blk_1 V c t _ _ hr0 rfl
  · exact blk_4 V c t _ _ rfl hr1
  · exact blk_3 V c t _ _ rfl hr1

/-- An index of the result array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v40).slice (win1_5.rect t)).set ↔ _
  rw [View.set_slice_whole, Rect.mem_set_unit]
  exact Iff.rfl

/-- The 25 row blocks cover the 50000 rows: row `r` lies in block `r / 2000`. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, -, -, -, -, -, -, e0, e1⟩ := idx_facts t
  refine ⟨t, flush1_5 t, ?_⟩
  rw [mem_blk]
  intro a
  have ht : t.val = (i 0).val / 2000 := rfl
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The second layer's array after the region: the layer function of the arrays the region found. -/
theorem final (c : Dev nD) :
    (dat1 V c).arrAt 5 cfg1.N = G (V c main_v38) (V c main_v26) (V c main_arg5) (V c main_arg7) (V c main_v39) :=
  (dat1 V c).arrAt_eq_of_cover 5 _ (fun t _ => flushed_eq V c t) cover

end Cert.KernelIdeal.Region1

end
-- ==== Proof.Region2.lean ====
/-
  The last layer's array.
-/
import proofs.«146359_j89996744720665_1_alg».proof.Proof.Gen.KernelIdeal.Frame
import proofs.«146359_j89996744720665_1_alg».proof.Proof.Layer
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- The layer as one function of whole arrays: entry (r, h). -/
def G (M X : Vec Ideal S50000x256 .f32) (Wl Wr : Vec Ideal S256x256 .f32) (b : Vec Ideal S1x256 .f32) :
    Vec Ideal S50000x256 .f32 :=
  fun i => ((∑ l : Fin 256, M (ix2 (i 0) l) * Wl (ix2 l (i 1)) + ∑ l : Fin 256, X (ix2 (i 0) l) * Wr (ix2 l (i 1)))
    + b (ix2 0 (i 1)))

/-- The stored value at any index of the block. -/
theorem pay2_at (v0 v3 : Vec Ideal S2000x256 .f32) (v5 v7 : Vec Ideal S256x256 .f32) (v12 : Vec Ideal S1x256 .f32)
    (j : S2000x256.Idx) :
    k2_pay1 (F := Ideal) v0 v3 v5 v7 v12 j
      = ((∑ l : Fin 256, v0 (ix2 (j 0) l) * v5 (ix2 l (j 1)) + ∑ l : Fin 256, v3 (ix2 (j 0) l) * v7 (ix2 l (j 1)))
          + v12 (ix2 0 (j 1))) :=
  (congrArg (k2_pay1 (F := Ideal) v0 v3 v5 v7 v12) (eq_ix2 j)).trans (pay2_apply v0 v3 v5 v7 v12 (j 0) (j 1))

/-- The printed index maps over the grid: the row-blocked windows move with the point, the others stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A block of the aggregated matrix is its rows `2000·t … 2000·t + 1999`. -/
theorem blk_0 (c : Dev nD) (t : Fin cfg2.N) (y : S2000x256.Idx) (k : S50000x256.Idx)
    (h0 : (k 0).val = t.val * 2000 + (y 0).val) (h1 : (k 1).val = (y 1).val) :
    (iblk2 V c 0 t : Vec Ideal S2000x256 .f32) y = (V c main_v52 : Vec Ideal S50000x256 .f32) k := by
  obtain ⟨e0, e1, -⟩ := idx_facts t
  unfold iblk2
  rw [View.read_apply]
  show V c main_v52 _ = V c main_v52 _
  congr 1
  funext a; apply Fin.ext
  match a with
  | ⟨0, _⟩ => show win2_0.index t 0 * 2000 + 1 * (y 0).val = (k 0).val; omega
  | ⟨1, _⟩ => show win2_0.index t 1 * 256 + 1 * (y 1).val = (k 1).val; omega

/-- A block of the node matrix is its rows `2000·t … 2000·t + 1999`. -/
theorem blk_1 (c : Dev nD) (t : Fin cfg2.N) (y : S2000x256.Idx) (k : S50000x256.Idx)
    (h0 : (k 0).val = t.val * 2000 + (y 0).val) (h1 : (k 1).val = (y 1).val) :
    (iblk2 V c 1 t : Vec Ideal S2000x256 .f32) y = (V c main_v40 : Vec Ideal S50000x256 .f32) k := by
  obtain ⟨-, -, e0, e1, -⟩ := idx_facts t
  unfold iblk2
  rw [View.read_apply]
  show V c main_v40 _ = V c main_v40 _
  congr 1
  funext a; apply Fin.ext
  match a with
  | ⟨0, _⟩ => show win2_1.index t 0 * 2000 + 1 * (y 0).val = (k 0).val; omega
  | ⟨1, _⟩ => show win2_1.index t 1 * 256 + 1 * (y 1).val = (k 1).val; omega

/-- The first weight matrix is staged whole. -/
theorem blk_2 (c : Dev nD) (t : Fin cfg2.N) (y k : S256x256.Idx)
    (h0 : (k 0).val = (y 0).val) (h1 : (k 1).val = (y 1).val) :
    (iblk2 V c 2 t : Vec Ideal S256x256 .f32) y = (V c main_arg8 : Vec Ideal S256x256 .f32) k := by
  obtain ⟨-, -, -, -, e0, e1, -⟩ := idx_facts t
  unfold iblk2
  rw [View.read_apply]
  show V c main_arg8 _ = V c main_arg8 _
  congr 1
  funext a; apply Fin.ext
  match a with
  | ⟨0, _⟩ => show win2_2.index t 0 * 256 + 1 * (y 0).val = (k 0).val; omega
  | ⟨1, _⟩ => show win2_2.index t 1 * 256 + 1 * (y 1).val = (k 1).val; omega

/-- The bias row is staged whole. -/
theorem blk_3 (c : Dev nD) (t : Fin cfg2.N) (y k : S1x256.Idx)
    (h0 : (k 0).val = (y 0).val) (h1 : (k 1).val = (y 1).val) :
    (iblk2 V c 3 t : Vec Ideal S1x256 .f32) y = (V c main_v53 : Vec Ideal S1x256 .f32) k := by
  obtain ⟨-, -, -, -, -, -, e0, e1, -⟩ := idx_facts t
  unfold iblk2
  rw [View.read_apply]
  show V c main_v53 _ = V c main_v53 _
  congr 1
  funext a; apply Fin.ext
  match a with
  | ⟨0, _⟩ => show win2_3.index t 0 * 1 + 1 * (y 0).val = (k 0).val; omega
  | ⟨1, _⟩ => show win2_3.index t 1 * 256 + 1 * (y 1).val = (k 1).val; omega

/-- The second weight matrix is staged whole. -/
theorem blk_4 (c : Dev nD) (t : Fin cfg2.N) (y k : S256x256.Idx)
    (h0 : (k 0).val = (y 0).val) (h1 : (k 1).val = (y 1).val) :
    (iblk2 V c 4 t : Vec Ideal S256x256 .f32) y = (V c main_arg10 : Vec Ideal S256x256 .f32) k := by
  obtain ⟨-, -, -, -, -, -, -, -, e0, e1, -⟩ := idx_facts t
  unfold iblk2
  rw [View.read_apply]
  show V c main_arg10 _ = V c main_arg10 _
  congr 1
  funext a; apply Fin.ext
  match a with
  | ⟨0, _⟩ => show win2_4.index t 0 * 256 + 1 * (y 0).val = (k 0).val; omega
  | ⟨1, _⟩ => show win2_4.index t 1 * 256 + 1 * (y 1).val = (k 1).val; omega

theorem flushed_eq (c : Dev nD) (t : Fin cfg2.N) :
    (dat2 V c).flushed 5 t = ((cfg2.win 5).blk t).view.read (Elt Ideal)
      (G (V c main_v52) (V c main_v40) (V c main_arg8) (V c main_arg10) (V c main_v53)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  funext j
  show k2_pay1 (F := Ideal) (iblk2 V c 0 t) (iblk2 V c 1 t) (iblk2 V c 2 t) (iblk2 V c 4 t) (iblk2 V c 3 t) j
    = G (V c main_v52) (V c main_v40) (V c main_arg8) (V c main_arg10) (V c main_v53) (((cfg2.win 5).blk t).view.emb j)
  refine (pay2_at (iblk2 V c 0 t) (iblk2 V c 1 t) (iblk2 V c 2 t) (iblk2 V c 4 t) (iblk2 V c 3 t) j).trans ?_
  obtain ⟨-, -, -, -, -, -, -, -, -, -, e0, e1⟩ := idx_facts t
  have hr0 : ((((cfg2.win 5).blk t).view.emb j) 0).val = t.val * 2000 + (j 0).val := by
    show win2_5.index t 0 * 2000 + 1 * (j 0).val = _; omega
  have hr1 : ((((cfg2.win 5).blk t).view.emb j) 1).val = (j 1).val := by
    show win2_5.index t 1 * 256 + 1 * (j 1).val = _; omega
  unfold G
  refine (congrArg₂ (· + ·) (congrArg₂ (· + ·)
    (Finset.sum_congr rfl fun l _ => congrArg₂ (· * ·) ?_ ?_)
    (Finset.sum_congr rfl fun l _ => congrArg₂ (· * ·) ?_ ?_)) ?_)
  · exact blk_0 V c t _ _ hr0 rfl
  · exact blk_2 V c t _ _ rfl hr1
  · exact blk_1 V c t _ _ hr0 rfl
  · exact blk_4 V c t _ _ rfl hr1
  · exact blk_3 V c t _ _ rfl hr1

/-- An index of the result array is in point `t`'s block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v54).slice (win2_5.rect t)).set ↔ _
  rw [View.set_slice_whole, Rect.mem_set_unit]
  exact Iff.rfl

/-- The 25 row blocks cover the 50000 rows: row `r` lies in block `r / 2000`. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨-, -, -, -, -, -, -, -, -, -, e0, e1⟩ := idx_facts t
  refine ⟨t, flush2_5 t, ?_⟩
  rw [mem_blk]
  intro a
  have ht : t.val = (i 0).val / 2000 := rfl
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The last layer's array after the region: the layer function of the arrays the region found. -/
theorem final (c : Dev nD) :
    (dat2 V c).arrAt 5 cfg2.N = G (V c main_v52) (V c main_v40) (V c main_arg8) (V c main_arg10) (V c main_v53) :=
  (dat2 V c).arrAt_eq_of_cover 5 _ (fun t _ => flushed_eq V c t) cover

end Cert.KernelIdeal.Region2

end
-- ==== Proof.Chain.lean ====
/-
  The kernel program's arrays from the launch to the result.

  The program computes, once, the source and destination node of every edge, each node's in-degree and the column of
  reciprocals 1 / max(deg, 1); then three times: gather the current node rows at the edges' sources, add them up at the
  edges' destinations, multiply each row by the node's reciprocal, and hand the result with the current node rows to a
  layer. Read boundary by boundary, the result array is the third layer of the second of the first of the inputs.
-/
import proofs.«146359_j89996744720665_1_alg».proof.Proof.Gen.KernelIdeal.Frame
import proofs.«146359_j89996744720665_1_alg».proof.Proof.Region0
import proofs.«146359_j89996744720665_1_alg».proof.Proof.Region1
import proofs.«146359_j89996744720665_1_alg».proof.Proof.Region2
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

/-! ## The program's terms -/

/-- The source node of every edge: row 0 of the edge list. -/
def srcOf (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- The destination node of every edge: row 1 of the edge list. -/
def dstOf (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The gather's start indices: a negative source word has the number of nodes added, as a column. -/
def wrapOf (e : (⟨S2x600000, .i32⟩ : BufTy).Contents (Elt Ideal)) : (⟨S600000x1, .i32⟩ : BufTy).Contents (Elt Ideal) :=
  broadcastInDim S600000x1 ![0] bcast_S600000_S600000x1_0
    (select (cmpi .slt (srcOf e) (broadcastInDim S600000 ![] bcast_S_S600000 (constantI S_ 32 0#32)))
      (addi (srcOf e) (broadcastInDim S600000 ![] bcast_S_S600000 (constantI S_ 32 50000#32))) (srcOf e))

/-- The destination words as a column of scatter indices. -/
def dstCol (e : (⟨S2x600000, .i32⟩ : BufTy).Contents (Elt Ideal)) : (⟨S600000x1, .i32⟩ : BufTy).Contents (Elt Ideal) :=
  broadcastInDim S600000x1 ![0] bcast_S600000_S600000x1_0 (dstOf e)

/-- Each node's in-degree: a one added per edge at its destination. -/
def degOf (e : (⟨S2x600000, .i32⟩ : BufTy).Contents (Elt Ideal)) : (⟨S50000, .f32⟩ : BufTy).Contents (Elt Ideal) :=
  Host.scatterAdd (F := Ideal) scatter_S50000_S600000x1_S600000_n_0_0_1
    (broadcastInDim S50000 ![] bcast_S_S50000 (constant (F := Ideal) S_ .f32 0x00000000#32)) (dstCol e)
    (broadcastInDim S600000 ![] bcast_S_S600000 (constant (F := Ideal) S_ .f32 0x3F800000#32))

/-- The column of reciprocals `1 / max(deg, 1)`. -/
def invCol (e : (⟨S2x600000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32))
      (maximumf (degOf e) (broadcastInDim S50000 ![] bcast_S_S50000 (constant (F := Ideal) S_ .f32 0x3F800000#32))))

/-- The rows of `h` gathered at the edges' sources and added up at their destinations (128 features). -/
def sum128 (h : (⟨S50000x128, .f32⟩ : BufTy).Contents (Elt Ideal)) (e : (⟨S2x600000, .i32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32)) (dstCol e)
    (Host.gather gather_S50000x128_S600000x1_S600000x128_1_0_n_n_0_1_1128 h (wrapOf e))

/-- The neighbourhood mean, the kernel program's way: the sums times the reciprocal column (128 features). -/
def mean128 (h : (⟨S50000x128, .f32⟩ : BufTy).Contents (Elt Ideal)) (e : (⟨S2x600000, .i32⟩ : BufTy).Contents (Elt Ideal)) :
    (⟨S50000x128, .f32⟩ : BufTy).Contents (Elt Ideal) :=
  mulf (F := Ideal) (s := S50000x128) (φ := .f32) (sum128 h e)
    (broadcastInDim S50000x128 ![0, 1] bcast_S50000x1_S50000x128_0_1 (invCol e))

/-- The rows of `h` gathered at the edges' sources and added up at their destinations (256 features). -/
def sum256 (h : (⟨S50000x256, .f32⟩ : BufTy).Contents (Elt Ideal)) (e : (⟨S2x600000, .i32⟩ : BufTy).Contents (Elt Ideal)) :
    (⟨S50000x256, .f32⟩ : BufTy).Contents (Elt Ideal) :=
  Host.scatterAdd (F := Ideal) scatter_S50000x256_S600000x1_S600000x256_1_0_0_1
    (broadcastInDim S50000x256 ![] bcast_S_S50000x256 (constant (F := Ideal) S_ .f32 0x00000000#32)) (dstCol e)
    (Host.gather gather_S50000x256_S600000x1_S600000x256_1_0_n_n_0_1_1256 h (wrapOf e))

/-- The neighbourhood mean, the kernel program's way: the sums times the reciprocal column (256 features). -/
def mean256 (h : (⟨S50000x256, .f32⟩ : BufTy).Contents (Elt Ideal)) (e : (⟨S2x600000, .i32⟩ : BufTy).Contents (Elt Ideal)) :
    (⟨S50000x256, .f32⟩ : BufTy).Contents (Elt Ideal) :=
  mulf (F := Ideal) (s := S50000x256) (φ := .f32) (sum256 h e)
    (broadcastInDim S50000x256 ![0, 1] bcast_S50000x1_S50000x256_0_1 (invCol e))

/-- A bias vector as the one row the kernel stages. -/
def rowOf (b : (⟨S256, .f32⟩ : BufTy).Contents (Elt Ideal)) : (⟨S1x256, .f32⟩ : BufTy).Contents (Elt Ideal) :=
  shapeCast S1x256 b shapeCasts_S256_S1x256

/-- The node rows after the first layer. -/
def H1 (x0 : (⟨S50000x128, .f32⟩ : BufTy).Contents (Elt Ideal)) (e : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) : (⟨S50000x256, .f32⟩ : BufTy).Contents (Elt Ideal) :=
  Region0.G (mean128 x0 e) x0 x2 x4 (rowOf x3)

/-- A 256-feature layer applied to node rows `h`. -/
def next1 (h : (⟨S50000x256, .f32⟩ : BufTy).Contents (Elt Ideal)) (e : (⟨S2x600000, .i32⟩ : BufTy).Contents (Elt Ideal))
    (wl : (⟨S256x256, .f32⟩ : BufTy).Contents (Elt Ideal)) (b : (⟨S256, .f32⟩ : BufTy).Contents (Elt Ideal))
    (wr : (⟨S256x256, .f32⟩ : BufTy).Contents (Elt Ideal)) : (⟨S50000x256, .f32⟩ : BufTy).Contents (Elt Ideal) :=
  Region1.G (mean256 h e) h wl wr (rowOf b)

/-- The last layer applied to node rows `h`: no clamp. -/
def next2 (h : (⟨S50000x256, .f32⟩ : BufTy).Contents (Elt Ideal)) (e : (⟨S2x600000, .i32⟩ : BufTy).Contents (Elt Ideal))
    (wl : (⟨S256x256, .f32⟩ : BufTy).Contents (Elt Ideal)) (b : (⟨S256, .f32⟩ : BufTy).Contents (Elt Ideal))
    (wr : (⟨S256x256, .f32⟩ : BufTy).Contents (Elt Ideal)) : (⟨S50000x256, .f32⟩ : BufTy).Contents (Elt Ideal) :=
  Region2.G (mean256 h e) h wl wr (rowOf b)

/-! ## The boundaries -/

variable (m : (ℓ : Loc nD τ sig) → Buf (Elt Ideal) ℓ) (ρ : Dev nD → PrngReg) (c : Dev nD)

/-- The launch contents of the arguments, by name. -/
abbrev x0 : (⟨S50000x128, .f32⟩ : BufTy).Contents (Elt Ideal) := m ((c : Thread nD τ).loc main_arg0)
abbrev xe : (⟨S2x600000, .i32⟩ : BufTy).Contents (Elt Ideal) := m ((c : Thread nD τ).loc main_arg1)
abbrev x2 : (⟨S128x256, .f32⟩ : BufTy).Contents (Elt Ideal) := m ((c : Thread nD τ).loc main_arg2)
abbrev x3 : (⟨S256, .f32⟩ : BufTy).Contents (Elt Ideal) := m ((c : Thread nD τ).loc main_arg3)
abbrev x4 : (⟨S128x256, .f32⟩ : BufTy).Contents (Elt Ideal) := m ((c : Thread nD τ).loc main_arg4)
abbrev x5 : (⟨S256x256, .f32⟩ : BufTy).Contents (Elt Ideal) := m ((c : Thread nD τ).loc main_arg5)
abbrev x6 : (⟨S256, .f32⟩ : BufTy).Contents (Elt Ideal) := m ((c : Thread nD τ).loc main_arg6)
abbrev x7 : (⟨S256x256, .f32⟩ : BufTy).Contents (Elt Ideal) := m ((c : Thread nD τ).loc main_arg7)
abbrev x8 : (⟨S256x256, .f32⟩ : BufTy).Contents (Elt Ideal) := m ((c : Thread nD τ).loc main_arg8)
abbrev x9 : (⟨S256, .f32⟩ : BufTy).Contents (Elt Ideal) := m ((c : Thread nD τ).loc main_arg9)
abbrev x10 : (⟨S256x256, .f32⟩ : BufTy).Contents (Elt Ideal) := m ((c : Thread nD τ).loc main_arg10)

/-! ### After the first stretch of host operations -/

theorem w1_src : W1 m ρ c (Proc.devRef .tc main_v1) = srcOf (xe m c) := by
  show StableHlo.after hostOps0 (W0 m ρ c) (Proc.devRef .tc main_v1) = _
  after_results <;> rfl

theorem w1_dst : W1 m ρ c (Proc.devRef .tc main_v3) = dstOf (xe m c) := by
  show StableHlo.after hostOps0 (W0 m ρ c) (Proc.devRef .tc main_v3) = _
  after_results <;> rfl

theorem w1_inv : W1 m ρ c (Proc.devRef .tc main_v12) = invCol (xe m c) := by
  show StableHlo.after hostOps0 (W0 m ρ c) (Proc.devRef .tc main_v12) = _
  after_results <;> rfl

set_option maxHeartbeats 4000000 in
theorem w1_mean : W1 m ρ c (Proc.devRef .tc main_v24) = mean128 (x0 m c) (xe m c) := by
  show StableHlo.after hostOps0 (W0 m ρ c) (Proc.devRef .tc main_v24) = _
  after_results_simp <;> rfl

set_option maxHeartbeats 4000000 in
theorem w1_row : W1 m ρ c (Proc.devRef .tc main_v25) = rowOf (x3 m c) := by
  show StableHlo.after hostOps0 (W0 m ρ c) (Proc.devRef .tc main_v25) = _
  after_results_simp <;> rfl

set_option maxHeartbeats 4000000 in
theorem w1_arg0 : W1 m ρ c (Proc.devRef .tc main_arg0) = m ((c : Thread nD τ).loc main_arg0) := by
  show StableHlo.after hostOps0 (W0 m ρ c) (Proc.devRef .tc main_arg0) = _
  after_results_simp <;> rfl

set_option maxHeartbeats 4000000 in
theorem w1_arg2 : W1 m ρ c (Proc.devRef .tc main_arg2) = m ((c : Thread nD τ).loc main_arg2) := by
  show StableHlo.after hostOps0 (W0 m ρ c) (Proc.devRef .tc main_arg2) = _
  after_results_simp <;> rfl

set_option maxHeartbeats 4000000 in
theorem w1_arg4 : W1 m ρ c (Proc.devRef .tc main_arg4) = m ((c : Thread nD τ).loc main_arg4) := by
  show StableHlo.after hostOps0 (W0 m ρ c) (Proc.devRef .tc main_arg4) = _
  after_results_simp <;> rfl

set_option maxHeartbeats 4000000 in
theorem w1_arg5 : W1 m ρ c (Proc.devRef .tc main_arg5) = m ((c : Thread nD τ).loc main_arg5) := by
  show StableHlo.after hostOps0 (W0 m ρ c) (Proc.devRef .tc main_arg5) = _
  after_results_simp <;> rfl

set_option maxHeartbeats 4000000 in
theorem w1_arg6 : W1 m ρ c (Proc.devRef .tc main_arg6) = m ((c : Thread nD τ).loc main_arg6) := by
  show StableHlo.after hostOps0 (W0 m ρ c) (Proc.devRef .tc main_arg6) = _
  after_results_simp <;> rfl

set_option maxHeartbeats 4000000 in
theorem w1_arg7 : W1 m ρ c (Proc.devRef .tc main_arg7) = m ((c : Thread nD τ).loc main_arg7) := by
  show StableHlo.after hostOps0 (W0 m ρ c) (Proc.devRef .tc main_arg7) = _
  after_results_simp <;> rfl

set_option maxHeartbeats 4000000 in
theorem w1_arg8 : W1 m ρ c (Proc.devRef .tc main_arg8) = m ((c : Thread nD τ).loc main_arg8) := by
  show StableHlo.after hostOps0 (W0 m ρ c) (Proc.devRef .tc main_arg8) = _
  after_results_simp <;> rfl

set_option maxHeartbeats 4000000 in
theorem w1_arg9 : W1 m ρ c (Proc.devRef .tc main_arg9) = m ((c : Thread nD τ).loc main_arg9) := by
  show StableHlo.after hostOps0 (W0 m ρ c) (Proc.devRef .tc main_arg9) = _
  after_results_simp <;> rfl

set_option maxHeartbeats 4000000 in
theorem w1_arg10 : W1 m ρ c (Proc.devRef .tc main_arg10) = m ((c : Thread nD τ).loc main_arg10) := by
  show StableHlo.after hostOps0 (W0 m ρ c) (Proc.devRef .tc main_arg10) = _
  after_results_simp <;> rfl

/-! ### After the first layer -/

/-- The first layer's array. -/
theorem w2_h1 : W2 m ρ c (Proc.devRef .tc main_v26) = H1 (x0 m c) (xe m c) (x2 m c) (x3 m c) (x4 m c) := by
  refine (W2_arr m ρ c 5).trans ((Region0.final (V1 m ρ) c).trans ?_)
  show Region0.G (W1 m ρ c (Proc.devRef .tc main_v24)) (W1 m ρ c (Proc.devRef .tc main_arg0))
    (W1 m ρ c (Proc.devRef .tc main_arg2)) (W1 m ρ c (Proc.devRef .tc main_arg4)) (W1 m ρ c (Proc.devRef .tc main_v25)) = _
  rw [w1_mean, w1_arg0, w1_arg2, w1_arg4, w1_row]
  rfl

/-! ### After the second stretch of host operations -/

theorem w3_src : W3 m ρ c (Proc.devRef .tc main_v1) = srcOf (xe m c) := by
  show StableHlo.after hostOps1 (W2 m ρ c) (Proc.devRef .tc main_v1) = _
  after_results
  rw [W2_of_ne m ρ c main_v1 (by decide), w1_src]

theorem w3_dst : W3 m ρ c (Proc.devRef .tc main_v3) = dstOf (xe m c) := by
  show StableHlo.after hostOps1 (W2 m ρ c) (Proc.devRef .tc main_v3) = _
  after_results
  rw [W2_of_ne m ρ c main_v3 (by decide), w1_dst]

theorem w3_inv : W3 m ρ c (Proc.devRef .tc main_v12) = invCol (xe m c) := by
  show StableHlo.after hostOps1 (W2 m ρ c) (Proc.devRef .tc main_v12) = _
  after_results
  rw [W2_of_ne m ρ c main_v12 (by decide), w1_inv]

theorem w3_h1 : W3 m ρ c (Proc.devRef .tc main_v26) = H1 (x0 m c) (xe m c) (x2 m c) (x3 m c) (x4 m c) := by
  show StableHlo.after hostOps1 (W2 m ρ c) (Proc.devRef .tc main_v26) = _
  after_results
  rw [w2_h1]

theorem w3_arg5 : W3 m ρ c (Proc.devRef .tc main_arg5) = m ((c : Thread nD τ).loc main_arg5) := by
  show StableHlo.after hostOps1 (W2 m ρ c) (Proc.devRef .tc main_arg5) = _
  after_results
  rw [W2_of_ne m ρ c main_arg5 (by decide), w1_arg5]

theorem w3_arg7 : W3 m ρ c (Proc.devRef .tc main_arg7) = m ((c : Thread nD τ).loc main_arg7) := by
  show StableHlo.after hostOps1 (W2 m ρ c) (Proc.devRef .tc main_arg7) = _
  after_results
  rw [W2_of_ne m ρ c main_arg7 (by decide), w1_arg7]

theorem w3_arg8 : W3 m ρ c (Proc.devRef .tc main_arg8) = m ((c : Thread nD τ).loc main_arg8) := by
  show StableHlo.after hostOps1 (W2 m ρ c) (Proc.devRef .tc main_arg8) = _
  after_results
  rw [W2_of_ne m ρ c main_arg8 (by decide), w1_arg8]

theorem w3_arg9 : W3 m ρ c (Proc.devRef .tc main_arg9) = m ((c : Thread nD τ).loc main_arg9) := by
  show StableHlo.after hostOps1 (W2 m ρ c) (Proc.devRef .tc main_arg9) = _
  after_results
  rw [W2_of_ne m ρ c main_arg9 (by decide), w1_arg9]

theorem w3_arg10 : W3 m ρ c (Proc.devRef .tc main_arg10) = m ((c : Thread nD τ).loc main_arg10) := by
  show StableHlo.after hostOps1 (W2 m ρ c) (Proc.devRef .tc main_arg10) = _
  after_results
  rw [W2_of_ne m ρ c main_arg10 (by decide), w1_arg10]

set_option maxHeartbeats 4000000 in
/-- The second layer's aggregated input: the mean of the first layer's rows. -/
theorem w3_mean : W3 m ρ c (Proc.devRef .tc main_v38)
    = mean256 (H1 (x0 m c) (xe m c) (x2 m c) (x3 m c) (x4 m c)) (xe m c) := by
  show StableHlo.after hostOps1 (W2 m ρ c) (Proc.devRef .tc main_v38) = _
  after_results_simp
  rw [W2_of_ne m ρ c main_v1 (by decide), W2_of_ne m ρ c main_v3 (by decide), W2_of_ne m ρ c main_v12 (by decide),
    w2_h1, w1_src, w1_dst, w1_inv]
  rfl

theorem w3_row : W3 m ρ c (Proc.devRef .tc main_v39) = rowOf (x6 m c) := by
  show StableHlo.after hostOps1 (W2 m ρ c) (Proc.devRef .tc main_v39) = _
  after_results
  rw [W2_of_ne m ρ c main_arg6 (by decide), w1_arg6]
  rfl

/-! ### After the second layer -/

/-- The second layer's array. -/
theorem w4_h2 : W4 m ρ c (Proc.devRef .tc main_v40)
    = next1 (H1 (x0 m c) (xe m c) (x2 m c) (x3 m c) (x4 m c)) (xe m c) (x5 m c) (x6 m c) (x7 m c) := by
  refine (W4_arr m ρ c 5).trans ((Region1.final (V3 m ρ) c).trans ?_)
  show Region1.G (W3 m ρ c (Proc.devRef .tc main_v38)) (W3 m ρ c (Proc.devRef .tc main_v26))
    (W3 m ρ c (Proc.devRef .tc main_arg5)) (W3 m ρ c (Proc.devRef .tc main_arg7)) (W3 m ρ c (Proc.devRef .tc main_v39)) = _
  rw [w3_mean, w3_h1, w3_arg5, w3_arg7, w3_row]
  rfl

/-! ### After the third stretch of host operations -/

set_option maxHeartbeats 4000000 in
/-- The last layer's aggregated input: the mean of the second layer's rows. -/
theorem w5_mean : W5 m ρ c (Proc.devRef .tc main_v52)
    = mean256 (next1 (H1 (x0 m c) (xe m c) (x2 m c) (x3 m c) (x4 m c)) (xe m c) (x5 m c) (x6 m c) (x7 m c)) (xe m c) := by
  show StableHlo.after hostOps2 (W4 m ρ c) (Proc.devRef .tc main_v52) = _
  after_results_simp
  rw [W4_of_ne m ρ c main_v1 (by decide), W4_of_ne m ρ c main_v3 (by decide), W4_of_ne m ρ c main_v12 (by decide),
    w4_h2, w3_src, w3_dst, w3_inv]
  rfl

theorem w5_row : W5 m ρ c (Proc.devRef .tc main_v53) = rowOf (x9 m c) := by
  show StableHlo.after hostOps2 (W4 m ρ c) (Proc.devRef .tc main_v53) = _
  after_results
  rw [W4_of_ne m ρ c main_arg9 (by decide), w3_arg9]
  rfl

theorem w5_h2 : W5 m ρ c (Proc.devRef .tc main_v40)
    = next1 (H1 (x0 m c) (xe m c) (x2 m c) (x3 m c) (x4 m c)) (xe m c) (x5 m c) (x6 m c) (x7 m c) := by
  show StableHlo.after hostOps2 (W4 m ρ c) (Proc.devRef .tc main_v40) = _
  after_results
  rw [w4_h2]

theorem w5_arg8 : W5 m ρ c (Proc.devRef .tc main_arg8) = m ((c : Thread nD τ).loc main_arg8) := by
  show StableHlo.after hostOps2 (W4 m ρ c) (Proc.devRef .tc main_arg8) = _
  after_results
  rw [W4_of_ne m ρ c main_arg8 (by decide), w3_arg8]

theorem w5_arg10 : W5 m ρ c (Proc.devRef .tc main_arg10) = m ((c : Thread nD τ).loc main_arg10) := by
  show StableHlo.after hostOps2 (W4 m ρ c) (Proc.devRef .tc main_arg10) = _
  after_results
  rw [W4_of_ne m ρ c main_arg10 (by decide), w3_arg10]

/-! ### The result -/

/-- The result array is the last layer of the second of the first. -/
theorem result : W6 m ρ c (Proc.devRef .tc main_v54)
    = next2 (next1 (H1 (x0 m c) (xe m c) (x2 m c) (x3 m c) (x4 m c)) (xe m c) (x5 m c) (x6 m c) (x7 m c)) (xe m c)
        (x8 m c) (x9 m c) (x10 m c) := by
  refine (W6_arr m ρ c 5).trans ((Region2.final (V5 m ρ) c).trans ?_)
  show Region2.G (W5 m ρ c (Proc.devRef .tc main_v52)) (W5 m ρ c (Proc.devRef .tc main_v40))
    (W5 m ρ c (Proc.devRef .tc main_arg8)) (W5 m ρ c (Proc.devRef .tc main_arg10)) (W5 m ρ c (Proc.devRef .tc main_v53)) = _
  rw [w5_mean, w5_h2, w5_arg8, w5_arg10, w5_row]
  rfl

end Cert.KernelIdeal.Chain

end
-- ==== Proof.LibSageLayer.lean ====
/-
  A mean over a neighbourhood and a layer of two products, at the ideal values.

  The neighbourhood mean of node r is the sum S(r, ·) of its neighbours' rows divided by D(r) = max(deg(r), 1). One
  spelling first takes the reciprocal column 1 / D and multiplies every row entry by it; the other divides every row
  entry by D laid along the row. D(r) is at least 1, so it is not zero, and off zero the quotient x / y IS the product
  x · y⁻¹ on every extended real, the infinities included; so x · (1 / y) = x · (1 · y⁻¹) = x · y⁻¹ = x / y, and the two
  spellings agree entry by entry whatever S and deg are.

  The layer's value at (r, h) is  Σ_l M(r, l)·Wl(l, h) + b(h) + Σ_l X(r, l)·Wr(l, h)  in the host's order of addition.
-/
import Idealize.ShloMosaic.PureOps.Ideal.Laws
import Idealize.ShloMosaic.Lib.ValueIdx
import Idealize.ShloMosaic.Lib.ValueLayout
import Idealize.ShloMosaic.Lib.Pipeline.Value
import proofs.«146359_j89996744720665_1_alg».proof.Proof.LibDenseLayer

noncomputable section

namespace Idealize.ShloMosaic.SageLayer

open Idealize.ShloMosaic Idealize.ShloMosaic.ValueIdx Idealize.ShloMosaic.DenseLayer

/-- Multiplying by the reciprocal of `max d 1` is dividing by it, on every extended real. -/
theorem mul_recip_max_one (x d : EReal) : x * Ideal.div 1 (max d 1) = Ideal.div x (max d 1) := by
  have h0 : max d 1 ≠ 0 := ne_of_gt (lt_of_lt_of_le zero_lt_one (le_max_right d 1))
  unfold Ideal.div
  rw [if_neg h0, if_neg h0, one_mul]

section Mean
variable {a b : ℕ}

/-- The two spellings of the row-wise mean are one array: the sums times the broadcast reciprocal column of
    `max deg 1`, and the sums divided by `max deg 1` broadcast along the rows. -/
theorem mean_eq (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (S : FVec Ideal ⟨2, ![a, b]⟩ .f32) (deg : FVec Ideal ⟨1, ![a]⟩ .f32) :
    mulf S (broadcastInDim ⟨2, ![a, b]⟩ ![0, 1] h2 (broadcastInDim ⟨2, ![a, 1]⟩ ![0] h1
        (Host.divf (broadcastInDim ⟨1, ![a]⟩ ![] h0 (constant (F := Ideal) ⟨0, ![]⟩ .f32 0x3F800000#32))
          (maximumf deg (broadcastInDim ⟨1, ![a]⟩ ![] h0 (constant (F := Ideal) ⟨0, ![]⟩ .f32 0x3F800000#32))))))
      = Host.divf S (broadcastInDim ⟨2, ![a, b]⟩ ![0, 1] h2 (broadcastInDim ⟨2, ![a, 1]⟩ ![0] h1
          (maximumf deg (broadcastInDim ⟨1, ![a]⟩ ![] h0 (constant (F := Ideal) ⟨0, ![]⟩ .f32 0x3F800000#32))))) := by
  funext i
  show S i * Ideal.div (Ideal.ofBits .f32 0x3F800000#32) (max (deg _) (Ideal.ofBits .f32 0x3F800000#32))
    = Ideal.div (S i) (max (deg _) (Ideal.ofBits .f32 0x3F800000#32))
  rw [Ideal.ofBits_one_f32]
  exact mul_recip_max_one _ _

end Mean

section Layer
variable {a k n : ℕ}

/-- The host's layer read at (r, h): the aggregated product, then the bias, then the node product. -/
theorem host_layer_apply (w : DotDims.WF ⟨2, ![a, k]⟩ ⟨2, ![k, n]⟩ ⟨2, ![a, n]⟩ [1] [0] [0] [1] [] [])
    (h1 : (⟨1, ![n]⟩ : Shape).BroadcastsInDim ⟨2, ![1, n]⟩ ![1])
    (h2 : (⟨2, ![1, n]⟩ : Shape).BroadcastsInDim ⟨2, ![a, n]⟩ ![0, 1])
    (M X : FVec Ideal ⟨2, ![a, k]⟩ .f32) (Wl Wr : FVec Ideal ⟨2, ![k, n]⟩ .f32) (bias : FVec Ideal ⟨1, ![n]⟩ .f32)
    (r : Fin a) (h : Fin n) :
    addf (addf (Host.dotGeneral (⟨[1], [0], [0], [1], [], [], w⟩ : DotDims _ _ _) none M Wl)
        (broadcastInDim ⟨2, ![a, n]⟩ ![0, 1] h2 (broadcastInDim ⟨2, ![1, n]⟩ ![1] h1 bias)))
      (Host.dotGeneral (⟨[1], [0], [0], [1], [], [], w⟩ : DotDims _ _ _) none X Wr) (ix2 r h)
      = (∑ l : Fin k, M (ix2 r l) * Wl (ix2 l h) + bias (ix1 h)) + ∑ l : Fin k, X (ix2 r l) * Wr (ix2 l h) := by
  rw [addf_apply, addf_apply]
  refine congrArg₂ (· + ·) (congrArg₂ (· + ·) ?_ ?_) ?_
  · exact dotGeneral_rows_apply w none _ M Wl r h
  · exact bias_inDim_apply h1 h2 bias r h
  · exact dotGeneral_rows_apply w none _ X Wr r h

/-- The kernel's order of the three terms and the host's give one extended real. -/
theorem three_terms (A B c : EReal) : (A + B) + c = (A + c) + B := add_right_comm A B c

end Layer

end Idealize.ShloMosaic.SageLayer

end
-- ==== Proof.Bridge.lean ====
/-
  The kernel program's layers are the reference's.

  Both programs gather, add up and count in the same words, so the sums and the in-degrees are one term. The mean is
  the sums times the reciprocal column in one program and the sums divided by max(deg, 1) in the other: equal on every
  extended real, since max(deg, 1) is not zero. A layer adds its three terms as (aggregated + node) + bias in one program
  and (aggregated + bias) + node in the other: addition on the extended reals is commutative and associative. The clamp
  of the first two layers is the same maximum with zero. Layer by layer the two results are one array.
-/
import proofs.«146359_j89996744720665_1_alg».proof.Proof.Gen.ReferenceIdeal.Read
import proofs.«146359_j89996744720665_1_alg».proof.Proof.Chain
import proofs.«146359_j89996744720665_1_alg».proof.Proof.LibSageLayer

noncomputable section

namespace Cert.Bridge

open Idealize.ShloMosaic Idealize.ShloMosaic.ValueIdx Idealize.ShloMosaic.SageLayer
open Cert.KernelIdeal (S50000x128 S50000x256 S2x600000 S128x256 S256x256 S256 S1x256)
open Cert.KernelIdeal.Chain (srcOf dstOf wrapOf dstCol degOf invCol sum128 mean128 sum256 mean256 rowOf H1 next1 next2)
open Cert.ReferenceIdeal.Read

/-! ## The shared words -/

theorem sum128_eq (y0 : (⟨S50000x128, .f32⟩ : BufTy).Contents (Elt Ideal)) (e : (⟨S2x600000, .i32⟩ : BufTy).Contents (Elt Ideal)) :
    sum128 y0 e = val_main_v13 (F := Ideal) y0 e := rfl

theorem deg_eq0 (e : (⟨S2x600000, .i32⟩ : BufTy).Contents (Elt Ideal)) : degOf e = val_main_v17 (F := Ideal) e := rfl
theorem deg_eq1 (e : (⟨S2x600000, .i32⟩ : BufTy).Contents (Elt Ideal)) : degOf e = val_main_v43 (F := Ideal) e := rfl
theorem deg_eq2 (e : (⟨S2x600000, .i32⟩ : BufTy).Contents (Elt Ideal)) : degOf e = val_main_v69 (F := Ideal) e := rfl

/-! ## The first layer -/

/-- The mean of the input rows, both ways. -/
theorem mean128_eq (y0 : (⟨S50000x128, .f32⟩ : BufTy).Contents (Elt Ideal)) (e : (⟨S2x600000, .i32⟩ : BufTy).Contents (Elt Ideal)) :
    mean128 y0 e = val_main_v22 (F := Ideal) y0 e := by
  unfold mean128 invCol val_main_v22 val_main_v21 val_main_v20 val_main_v19 val_main_v18 val_main_cst_3
  rw [sum128_eq, deg_eq0]
  exact mean_eq _ _ _ _ _

theorem layer0 (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal))
    (y4 : (⟨S128x256, .f32⟩ : BufTy).Contents (Elt Ideal)) :
    H1 y0 e y2 y3 y4 = val_main_v29 (F := Ideal) y0 e y2 y3 y4 := by
  funext i
  obtain ⟨r, h, rfl⟩ : ∃ (r : Fin 50000) (h : Fin 256), i = ix2 r h := ⟨i 0, i 1, eq_ix2 i⟩
  have hR : val_main_v29 (F := Ideal) y0 e y2 y3 y4 (ix2 r h)
      = max ((∑ l : Fin 128, val_main_v22 (F := Ideal) y0 e (ix2 r l) * y2 (ix2 l h) + y3 (ix1 h))
          + ∑ l : Fin 128, y0 (ix2 r l) * y4 (ix2 l h)) 0 := by
    show max (val_main_v28 (F := Ideal) y0 e y2 y3 y4 (ix2 r h)) (Ideal.ofBits .f32 0x00000000#32) = _
    rw [Ideal.ofBits_zero_f32]
    refine congrArg (fun v => max v 0) ?_
    exact host_layer_apply _ _ _ (val_main_v22 (F := Ideal) y0 e) y0 y2 y4 y3 r h
  rw [hR, ← mean128_eq]
  show max ((∑ l : Fin 128, mean128 y0 e (ix2 r l) * y2 (ix2 l h) + ∑ l : Fin 128, y0 (ix2 r l) * y4 (ix2 l h))
      + rowOf y3 (ix2 (0 : Fin 1) h)) 0 = _
  rw [show rowOf y3 (ix2 (0 : Fin 1) h) = y3 (ix1 h) from shapeCast_a_1a_apply _ _ _ _, three_terms]

/-! ## The second layer -/

theorem sum256_eq1 (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal)) (y4 : (⟨S128x256, .f32⟩ : BufTy).Contents (Elt Ideal)) :
    sum256 (val_main_v29 (F := Ideal) y0 e y2 y3 y4) e = val_main_v39 (F := Ideal) y0 e y2 y3 y4 := rfl

/-- The mean of the first layer's rows, both ways. -/
theorem mean256_eq1 (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal)) (y4 : (⟨S128x256, .f32⟩ : BufTy).Contents (Elt Ideal)) :
    mean256 (val_main_v29 (F := Ideal) y0 e y2 y3 y4) e = val_main_v48 (F := Ideal) y0 e y2 y3 y4 := by
  unfold mean256 invCol val_main_v48 val_main_v47 val_main_v46 val_main_v45 val_main_v44 val_main_cst_9
  rw [sum256_eq1, deg_eq1]
  exact mean_eq _ _ _ _ _

theorem layer1 (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal)) (y4 : (⟨S128x256, .f32⟩ : BufTy).Contents (Elt Ideal))
    (y5 : (⟨S256x256, .f32⟩ : BufTy).Contents (Elt Ideal)) (y6 : (⟨S256, .f32⟩ : BufTy).Contents (Elt Ideal)) (y7 : (⟨S256x256, .f32⟩ : BufTy).Contents (Elt Ideal)) :
    next1 (val_main_v29 (F := Ideal) y0 e y2 y3 y4) e y5 y6 y7 = val_main_v55 (F := Ideal) y0 e y2 y3 y4 y5 y6 y7 := by
  funext i
  obtain ⟨r, h, rfl⟩ : ∃ (r : Fin 50000) (h : Fin 256), i = ix2 r h := ⟨i 0, i 1, eq_ix2 i⟩
  have hR : val_main_v55 (F := Ideal) y0 e y2 y3 y4 y5 y6 y7 (ix2 r h)
      = max ((∑ l : Fin 256, val_main_v48 (F := Ideal) y0 e y2 y3 y4 (ix2 r l) * y5 (ix2 l h) + y6 (ix1 h))
          + ∑ l : Fin 256, val_main_v29 (F := Ideal) y0 e y2 y3 y4 (ix2 r l) * y7 (ix2 l h)) 0 := by
    show max (val_main_v54 (F := Ideal) y0 e y2 y3 y4 y5 y6 y7 (ix2 r h)) (Ideal.ofBits .f32 0x00000000#32) = _
    rw [Ideal.ofBits_zero_f32]
    refine congrArg (fun v => max v 0) ?_
    exact host_layer_apply _ _ _ (val_main_v48 (F := Ideal) y0 e y2 y3 y4) (val_main_v29 (F := Ideal) y0 e y2 y3 y4) y5 y7 y6 r h
  rw [hR, ← mean256_eq1]
  show max ((∑ l : Fin 256, mean256 (val_main_v29 (F := Ideal) y0 e y2 y3 y4) e (ix2 r l) * y5 (ix2 l h)
      + ∑ l : Fin 256, val_main_v29 (F := Ideal) y0 e y2 y3 y4 (ix2 r l) * y7 (ix2 l h))
      + rowOf y6 (ix2 (0 : Fin 1) h)) 0 = _
  rw [show rowOf y6 (ix2 (0 : Fin 1) h) = y6 (ix1 h) from shapeCast_a_1a_apply _ _ _ _, three_terms]

/-! ## The last layer -/

theorem sum256_eq2 (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal)) (y4 : (⟨S128x256, .f32⟩ : BufTy).Contents (Elt Ideal))
    (y5 : (⟨S256x256, .f32⟩ : BufTy).Contents (Elt Ideal)) (y6 : (⟨S256, .f32⟩ : BufTy).Contents (Elt Ideal)) (y7 : (⟨S256x256, .f32⟩ : BufTy).Contents (Elt Ideal)) :
    sum256 (val_main_v55 (F := Ideal) y0 e y2 y3 y4 y5 y6 y7) e = val_main_v65 (F := Ideal) y0 e y2 y3 y4 y5 y6 y7 := rfl

/-- The mean of the second layer's rows, both ways. -/
theorem mean256_eq2 (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal)) (y4 : (⟨S128x256, .f32⟩ : BufTy).Contents (Elt Ideal))
    (y5 : (⟨S256x256, .f32⟩ : BufTy).Contents (Elt Ideal)) (y6 : (⟨S256, .f32⟩ : BufTy).Contents (Elt Ideal)) (y7 : (⟨S256x256, .f32⟩ : BufTy).Contents (Elt Ideal)) :
    mean256 (val_main_v55 (F := Ideal) y0 e y2 y3 y4 y5 y6 y7) e = val_main_v74 (F := Ideal) y0 e y2 y3 y4 y5 y6 y7 := by
  unfold mean256 invCol val_main_v74 val_main_v73 val_main_v72 val_main_v71 val_main_v70 val_main_cst_15
  rw [sum256_eq2, deg_eq2]
  exact mean_eq _ _ _ _ _

theorem layer2 (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal)) (y4 : (⟨S128x256, .f32⟩ : BufTy).Contents (Elt Ideal))
    (y5 : (⟨S256x256, .f32⟩ : BufTy).Contents (Elt Ideal)) (y6 : (⟨S256, .f32⟩ : BufTy).Contents (Elt Ideal)) (y7 : (⟨S256x256, .f32⟩ : BufTy).Contents (Elt Ideal))
    (y8 : (⟨S256x256, .f32⟩ : BufTy).Contents (Elt Ideal)) (y9 : (⟨S256, .f32⟩ : BufTy).Contents (Elt Ideal)) (y10 : (⟨S256x256, .f32⟩ : BufTy).Contents (Elt Ideal)) :
    next2 (val_main_v55 (F := Ideal) y0 e y2 y3 y4 y5 y6 y7) e y8 y9 y10
      = val_main_v80 (F := Ideal) y0 e y2 y3 y4 y5 y6 y7 y8 y9 y10 := by
  funext i
  obtain ⟨r, h, rfl⟩ : ∃ (r : Fin 50000) (h : Fin 256), i = ix2 r h := ⟨i 0, i 1, eq_ix2 i⟩
  have hR : val_main_v80 (F := Ideal) y0 e y2 y3 y4 y5 y6 y7 y8 y9 y10 (ix2 r h)
      = (∑ l : Fin 256, val_main_v74 (F := Ideal) y0 e y2 y3 y4 y5 y6 y7 (ix2 r l) * y8 (ix2 l h) + y9 (ix1 h))
          + ∑ l : Fin 256, val_main_v55 (F := Ideal) y0 e y2 y3 y4 y5 y6 y7 (ix2 r l) * y10 (ix2 l h) :=
    host_layer_apply _ _ _ (val_main_v74 (F := Ideal) y0 e y2 y3 y4 y5 y6 y7) (val_main_v55 (F := Ideal) y0 e y2 y3 y4 y5 y6 y7) y8 y10 y9 r h
  rw [hR, ← mean256_eq2]
  show (∑ l : Fin 256, mean256 (val_main_v55 (F := Ideal) y0 e y2 y3 y4 y5 y6 y7) e (ix2 r l) * y8 (ix2 l h)
      + ∑ l : Fin 256, val_main_v55 (F := Ideal) y0 e y2 y3 y4 y5 y6 y7 (ix2 r l) * y10 (ix2 l h))
      + rowOf y9 (ix2 (0 : Fin 1) h) = _
  rw [show rowOf y9 (ix2 (0 : Fin 1) h) = y9 (ix1 h) from shapeCast_a_1a_apply _ _ _ _, three_terms]

/-! ## The three layers composed -/

/-- The kernel program's result, as a function of the arguments, is the reference's. -/
theorem kernel_eq_ref (y0 : (⟨S50000x128, .f32⟩ : BufTy).Contents (Elt Ideal)) (e : (⟨S2x600000, .i32⟩ : BufTy).Contents (Elt Ideal))
    (y2 : (⟨S128x256, .f32⟩ : BufTy).Contents (Elt Ideal)) (y3 : (⟨S256, .f32⟩ : BufTy).Contents (Elt Ideal)) (y4 : (⟨S128x256, .f32⟩ : BufTy).Contents (Elt Ideal))
    (y5 : (⟨S256x256, .f32⟩ : BufTy).Contents (Elt Ideal)) (y6 : (⟨S256, .f32⟩ : BufTy).Contents (Elt Ideal)) (y7 : (⟨S256x256, .f32⟩ : BufTy).Contents (Elt Ideal))
    (y8 : (⟨S256x256, .f32⟩ : BufTy).Contents (Elt Ideal)) (y9 : (⟨S256, .f32⟩ : BufTy).Contents (Elt Ideal)) (y10 : (⟨S256x256, .f32⟩ : BufTy).Contents (Elt Ideal)) :
    next2 (next1 (H1 y0 e y2 y3 y4) e y5 y6 y7) e y8 y9 y10
      = val_main_v80 (F := Ideal) y0 e y2 y3 y4 y5 y6 y7 y8 y9 y10 := by
  rw [layer0, layer1, layer2]

end Cert.Bridge

end
-- ==== Proof.lean ====
/-
  Three layers of neighbourhood averaging, a kernel program against a plain reference, over the extended reals.

  Each layer maps node rows h to  act( mean(h) · Wl + b + h · Wr ),  where mean(h) at node r is the sum of the rows of r's
  in-neighbours divided by max(deg(r), 1), and act clamps below at zero in the first two layers and is the identity in
  the last. The kernel program computes the sums and the in-degrees on the host exactly as the reference does, then
  multiplies the sums by the reciprocal column 1 / max(deg, 1) where the reference divides by max(deg, 1), and hands the
  mean and h to a kernel that forms the two products block of rows by block of rows, adds them, then the bias. Since
  max(deg, 1) ≥ 1 is not zero, the product with the reciprocal is the quotient on every extended real; the blocks of
  2000 rows tile the 50000 rows, so the kernel's output array is one function of its whole input arrays; and the three
  terms are added in another order, which addition on the extended reals does not see. So the two results are one
  array, layer by layer. No finiteness of the inputs is used.
-/
import proofs.«146359_j89996744720665_1_alg».proof.Defs
import proofs.«146359_j89996744720665_1_alg».proof.Proof.Gen.Kernel
import proofs.«146359_j89996744720665_1_alg».proof.Proof.Gen.Kernel.Frame
import proofs.«146359_j89996744720665_1_alg».proof.Proof.Gen.KernelIdeal
import proofs.«146359_j89996744720665_1_alg».proof.Proof.Gen.KernelIdeal.Frame
import proofs.«146359_j89996744720665_1_alg».proof.Proof.Gen.ReferenceIdeal
import proofs.«146359_j89996744720665_1_alg».proof.Proof.Gen.ReferenceIdeal.Run
import proofs.«146359_j89996744720665_1_alg».proof.Proof.Gen.ReferenceIdeal.Read
import proofs.«146359_j89996744720665_1_alg».proof.Proof.Gen.Pre_finite_inputs
import proofs.«146359_j89996744720665_1_alg».proof.Proof.KRun
import proofs.«146359_j89996744720665_1_alg».proof.Proof.Chain
import proofs.«146359_j89996744720665_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with one result array: the kernel program's is the third
    layer of the second of the first of its arguments, and that function of the arguments is the reference's. -/
theorem algebraic : Cert.algebraic_KernelIdeal_ReferenceIdeal := by
  intro m ρ m' ρ' _ hagree
  refine ⟨fun c => Cert.KernelIdeal.Gen.W6 m ρ c (Proc.devRef .tc Cert.KernelIdeal.main_v54),
    Cert.KernelIdeal.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v80_eq, e0, e1, e2, e3, e4, e5, e6, e7, e8, e9, e10]
  exact ((Cert.KernelIdeal.Chain.result m ρ c).trans (Cert.Bridge.kernel_eq_ref _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
